-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128 : Shape := ⟨3, ![32, 128, 128]⟩
abbrev S128x128 : Shape := ⟨2, ![128, 128]⟩
abbrev S16384x16384 : Shape := ⟨2, ![16384, 16384]⟩
abbrev S_ : Shape := ⟨0, ![]⟩

class Facts : Prop where
  bcast_S_S32x128x128 : S_.BroadcastsInDim S32x128x128 (![] : Fin 0 → Fin S32x128x128.rank)
  reducesTo_S32x128x128_S_d0_1_2 : S32x128x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S16384x16384 : S_.BroadcastsInDim S16384x16384 (![] : Fin 0 → Fin S16384x16384.rank)
  reducesTo_S16384x16384_S_d0_1 : S16384x16384.ReducesTo [0, 1] S_

variable [Facts]

def fn {F : FTy → Type} [FloatOps F] (main_arg0 : FVec F S32x128x128 .f32) (main_arg1 : FVec F S128x128 .f32) (main_arg2 : FVec F S16384x16384 .f32) : IVec S_ 1 :=
  let main_v0 : FVec F S32x128x128 .f32 := Host.absf main_arg0
  let main_cst : FVec F S_ .f32 := constant S_ .f32 0x7F800000#32
  let main_v1 : FVec F S32x128x128 .f32 := broadcastInDim S32x128x128 ![] bcast_S_S32x128x128 main_cst
  let main_v2 : IVec S32x128x128 1 := cmpf .olt main_v0 main_v1
  let main_c : IVec S_ 1 := constantI S_ 1 1#1
  let main_v3 : IVec S_ 1 := (fun x v => Host.reduce IntOp.andi x v reducesTo_S32x128x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S16384x16384 .f32 := Host.absf main_arg2
  let main_cst_2 : FVec F S_ .f32 := constant S_ .f32 0x7F800000#32
  let main_v10 : FVec F S16384x16384 .f32 := broadcastInDim S16384x16384 ![] bcast_S_S16384x16384 main_cst_2
  let main_v11 : IVec S16384x16384 1 := cmpf .olt main_v9 main_v10
  let main_c_3 : IVec S_ 1 := constantI S_ 1 1#1
  let main_v12 : IVec S_ 1 := (fun x v => Host.reduce IntOp.andi x v reducesTo_S16384x16384_S_d0_1 h_S_) main_v11 main_c_3
  let main_v13 : IVec S_ 1 := andi main_v8 main_v12
  main_v13
-- ==== Kernel.lean ====
abbrev S32x128x128 : Shape := ⟨3, ![32, 128, 128]⟩
abbrev S128x128 : Shape := ⟨2, ![128, 128]⟩
abbrev S16384x16384 : Shape := ⟨2, ![16384, 16384]⟩
abbrev S_ : Shape := ⟨0, ![]⟩
abbrev S1x16384 : Shape := ⟨2, ![1, 16384]⟩
abbrev S32x16384 : Shape := ⟨2, ![32, 16384]⟩
abbrev S1024x2048 : Shape := ⟨2, ![1024, 2048]⟩
abbrev S32x2048 : Shape := ⟨2, ![32, 2048]⟩
abbrev S1x2048 : Shape := ⟨2, ![1, 2048]⟩
abbrev S32x1024 : Shape := ⟨2, ![32, 1024]⟩

abbrev nBuf : Space → Nat
  | .hbm => 13
  | .vmem => 9
  | .smem => 0
  | _ => 0

abbrev bufTy : (tb : Table) → Fin (tcTables nBuf tb) → BufTy
  | .hbm, ⟨0, _⟩ => ⟨S32x128x128, .f32⟩
  | .hbm, ⟨1, _⟩ => ⟨S128x128, .f32⟩
  | .hbm, ⟨2, _⟩ => ⟨S16384x16384, .f32⟩
  | .hbm, ⟨3, _⟩ => ⟨S_, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S1x16384, .f32⟩
  | .hbm, ⟨10, _⟩ => ⟨S32x16384, .f32⟩
  | .hbm, ⟨11, _⟩ => ⟨S32x16384, .f32⟩
  | .hbm, ⟨12, _⟩ => ⟨S32x128x128, .f32⟩
  | .local _ .vmem, ⟨0, _⟩ => ⟨S1024x2048, .f32⟩
  | .local _ .vmem, ⟨1, _⟩ => ⟨S1024x2048, .f32⟩
  | .local _ .vmem, ⟨2, _⟩ => ⟨S32x2048, .f32⟩
  | .local _ .vmem, ⟨3, _⟩ => ⟨S32x2048, .f32⟩
  | .local _ .vmem, ⟨4, _⟩ => ⟨S1x2048, .f32⟩
  | .local _ .vmem, ⟨5, _⟩ => ⟨S1x2048, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S128x128 : S_.BroadcastsInDim S128x128 (![] : Fin 0 → Fin S128x128.rank)
  shapeCasts_S128x128_S1x16384 : S128x128.ShapeCasts S1x16384
  shapeCasts_S32x128x128_S32x16384 : S32x128x128.ShapeCasts S32x16384
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  broadcasts_S1x2048_S32x2048 : S1x2048.Broadcasts S32x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S32x16384_S32x128x128 : S32x16384.ShapeCasts S32x128x128
  dot_S32x2048_S1024x2048_S32x1024_1_1_0_0_n_n_wf : DotDims.WF S32x2048 S1024x2048 S32x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x16384.size a
  hwx0_1 : ∀ i : grid0.Coords, EltTy.bits .f32 = 32 ∨ (Rect.block (s := S32x16384) S32x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x16384.size a
  hwx0_2 : ∀ i : grid0.Coords, EltTy.bits .f32 = 32 ∨ (Rect.block (s := S1x16384) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x16384.size a
  hwx0_3 : ∀ i : grid0.Coords, EltTy.bits .f32 = 32 ∨ (Rect.block (s := S32x16384) S32x1024.size (cc0_transform_3 i) (hinb0_3 i)).WholeWords (EltTy.packing .f32)

variable [Facts₀]

def dot_S32x2048_S1024x2048_S32x1024_1_1_0_0_n_n : DotDims S32x2048 S1024x2048 S32x1024 where
  lhsContracting := [1]
  rhsContracting := [1]
  lhsNonContracting := [0]
  rhsNonContracting := [0]
  lhsBatch := []
  rhsBatch := []
  wf := dot_S32x2048_S1024x2048_S32x1024_1_1_0_0_n_n_wf

abbrev win0_0 : Pipeline.Window sig grid0 :=
  Pipeline.Window.ofSpec (Memref.whole main_arg2) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S32x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S32x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32x128x128 : Shape := ⟨3, ![32, 128, 128]⟩
abbrev S128x128 : Shape := ⟨2, ![128, 128]⟩
abbrev S16384x16384 : Shape := ⟨2, ![16384, 16384]⟩
abbrev S_ : Shape := ⟨0, ![]⟩
abbrev S1x128x128 : Shape := ⟨3, ![1, 128, 128]⟩
abbrev S32x16384 : Shape := ⟨2, ![32, 16384]⟩

abbrev nBuf : Space → Nat
  | .hbm => 16
  | .vmem => 0
  | .smem => 0
  | _ => 0

abbrev bufTy : (tb : Table) → Fin (tcTables nBuf tb) → BufTy
  | .hbm, ⟨0, _⟩ => ⟨S32x128x128, .f32⟩
  | .hbm, ⟨1, _⟩ => ⟨S128x128, .f32⟩
  | .hbm, ⟨2, _⟩ => ⟨S16384x16384, .f32⟩
  | .hbm, ⟨3, _⟩ => ⟨S_, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S1x128x128, .f32⟩
  | .hbm, ⟨11, _⟩ => ⟨S32x128x128, .f32⟩
  | .hbm, ⟨12, _⟩ => ⟨S32x128x128, .f32⟩
  | .hbm, ⟨13, _⟩ => ⟨S32x16384, .f32⟩
  | .hbm, ⟨14, _⟩ => ⟨S32x16384, .f32⟩
  | .hbm, ⟨15, _⟩ => ⟨S32x128x128, .f32⟩
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S128x128_S1x128x128_1_2 : S128x128.BroadcastsInDim S1x128x128 (![1, 2] : Fin 2 → Fin S1x128x128.rank)
  bcast_S1x128x128_S32x128x128_0_1_2 : S1x128x128.BroadcastsInDim S32x128x128 (![0, 1, 2] : Fin 3 → Fin S32x128x128.rank)
  shapeCasts_S32x128x128_S32x16384 : S32x128x128.ShapeCasts S32x16384
  shapeCasts_S32x16384_S32x128x128 : S32x16384.ShapeCasts S32x128x128
  dot_S32x16384_S16384x16384_S32x16384_1_1_0_0_n_n_wf : DotDims.WF S32x16384 S16384x16384 S32x16384 [1] [1] [0] [0] [] []

variable [Facts₀]

def dot_S32x16384_S16384x16384_S32x16384_1_1_0_0_n_n : DotDims S32x16384 S16384x16384 S32x16384 where
  lhsContracting := [1]
  rhsContracting := [1]
  lhsNonContracting := [0]
  rhsNonContracting := [0]
  lhsBatch := []
  rhsBatch := []
  wf := dot_S32x16384_S16384x16384_S32x16384_1_1_0_0_n_n_wf

class Facts : Prop extends Facts₀ where

variable [Facts]
-- ==== Proof.Pieces.lean ====
/-
  What one run of the kernel body leaves behind, as values.

  The body zeroes the accumulator at the first source stretch (k = 0), always adds the current stretch's
  block product to it, and at the last stretch (k = 7) copies the accumulator to the output block.
  So after the body the accumulator holds "previous accumulator (or zero) + this stretch's product",
  and at the last stretch the output block holds the same.
-/
import proofs.«147941_j22608707846341_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]
variable (c : Dev nD) (i : grid0.Coords)
  (arg2 : Memref sig .tc .vmem S1024x2048 .f32) (harg2 : arg2.IsWhole)
  (arg3 : Memref sig .tc .vmem S32x2048 .f32) (harg3 : arg3.IsWhole)
  (arg4 : Memref sig .tc .vmem S1x2048 .f32) (harg4 : arg4.IsWhole)
  (arg5 : Memref sig .tc .vmem S32x1024 .f32) (harg5 : arg5.IsWhole)
  (arg6 : Memref sig .tc .vmem S32x1024 .f32) (harg6 : arg6.IsWhole)
  (x0 : Vec F S1024x2048 .f32) (x1 : Vec F S32x2048 .f32) (x2 : Vec F S1x2048 .f32)

/-- The zero offsets of a whole-buffer access, however spelt. -/
private theorem hz : (![0, 0] : Fin 2 → Nat) = fun _ => 0 := funext fun a => by fin_cases a <;> rfl

/-- First stretch: the accumulator is zeroed, then gets this stretch's product. -/
theorem scratch_A (hc0 : cond0_0 i) (hc1 : ¬cond0_1 i) :
    sout0_A_0 c i arg2 harg2 arg3 harg3 arg4 harg4 arg5 harg5 arg6 harg6 hc0 hc1 x0 x1 x2
      = k0_pay2 x2 x1 x0 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  -- two stores, both of the whole accumulator: the later one (the sum) is what stays, and the accumulator
  -- it adds to is the zero block read back from the earlier one
  rw [View.canon_cons_unit_zero (S := S32x1024) hz, View.readCov_unit_zero (S := S32x1024) _ hz]
  simp only [View.readAt_eq_ld, harg2.read_unread, harg3.read_unread, harg4.read_unread,
    View.ld_unit_zero (S := S1024x2048) hz, View.ld_unit_zero (S := S32x2048) hz,
    View.ld_unit_zero (S := S1x2048) hz]

/-- A middle stretch: the accumulator the point before left, plus this stretch's product. -/
theorem scratch_B (hc0 : ¬cond0_0 i) (hc1 : ¬cond0_1 i) (xs0 : Vec F S32x1024 .f32) :
    sout0_B_0 c i arg2 harg2 arg3 harg3 arg4 harg4 arg5 harg5 arg6 harg6 hc0 hc1 x0 x1 x2 xs0
      = k0_pay2 x2 x1 x0 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S1024x2048) hz, View.ld_unit_zero (S := S32x2048) hz,
    View.ld_unit_zero (S := S1x2048) hz, View.ld_unit_zero (S := S32x1024) hz]

/-- The last stretch: the same for the accumulator … -/
theorem scratch_C (hc0 : ¬cond0_0 i) (hc1 : cond0_1 i) (xs0 : Vec F S32x1024 .f32) :
    sout0_C_0 c i arg2 harg2 arg3 harg3 arg4 harg4 arg5 harg5 arg6 harg6 hc0 hc1 x0 x1 x2 xs0
      = k0_pay2 x2 x1 x0 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S1024x2048) hz, View.ld_unit_zero (S := S32x2048) hz,
    View.ld_unit_zero (S := S1x2048) hz, View.ld_unit_zero (S := S32x1024) hz]

/-- … and the output block is a copy of it. -/
theorem out_C (hc0 : ¬cond0_0 i) (hc1 : cond0_1 i) (xs0 : Vec F S32x1024 .f32) :
    out0_C_3 c i arg2 harg2 arg3 harg3 arg4 harg4 arg5 harg5 arg6 harg6 hc0 hc1 x0 x1 x2 xs0
      = k0_pay2 x2 x1 x0 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  -- the output's one store writes the whole accumulator as read back after the sum was stored into it
  rw [View.canon_unit_zero hz, View.readCov_unit_zero (S := S32x1024) _ hz]
  simp only [View.readAt_eq_ld, harg2.read_unread, harg3.read_unread, harg4.read_unread, harg6.read_unread,
    View.ld_unit_zero (S := S1024x2048) hz, View.ld_unit_zero (S := S32x2048) hz,
    View.ld_unit_zero (S := S1x2048) hz, View.ld_unit_zero (S := S32x1024) hz]

end Cert.KernelIdeal.Pieces

end
-- ==== Proof.Payload.lean ====
/-
  The body's two payloads at an entry, read at the ideal values.

  The first is the zero block. The second is "accumulator + block product": at (b, r),
      acc[b, r] + ∑ over the stretch's 2048 sources j of (gain[0, j] · spikes[b, j]) · adjacency[r, j].
  The narrowing of both matrix-unit operands to a 16-bit format changes nothing at the ideal values, the
  gain row is broadcast over the 32 batch rows, and a matrix product into a zero accumulator is the plain
  sum over the one contracted axis.
-/
import proofs.«147941_j22608707846341_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen
open Idealize.ShloMosaic Idealize.ShloMosaic.ValueIdx

/-- The zero block. -/
theorem pay1_apply (i : S32x1024.Idx) : (k0_pay1 (F := Ideal)) i = 0 := by
  unfold k0_pay1
  simp only [shapeCast_self]
  exact Ideal.ofBits_zero_f32

/-! The block product's operand indices, axis by axis: the left operand is read at (output row, contracted
    position), the right operand at (output column, contracted position). -/

theorem lhs_0 (i : S32x1024.Idx) (q : dot_S32x2048_S1024x2048_S32x1024_1_1_0_0_n_n.contr.Idx) :
    (dot_S32x2048_S1024x2048_S32x1024_1_1_0_0_n_n.lhsIdx i q 0).val = (i 0).val := by
  unfold DotDims.lhsIdx
  rw [dif_neg (show ¬(0 : Fin S32x2048.rank) ∈ dot_S32x2048_S1024x2048_S32x1024_1_1_0_0_n_n.lhsBatch by decide), dif_pos (show (0 : Fin S32x2048.rank) ∈ dot_S32x2048_S1024x2048_S32x1024_1_1_0_0_n_n.lhsNonContracting by decide)]
  rfl
theorem lhs_1 (i : S32x1024.Idx) (q : dot_S32x2048_S1024x2048_S32x1024_1_1_0_0_n_n.contr.Idx) :
    (dot_S32x2048_S1024x2048_S32x1024_1_1_0_0_n_n.lhsIdx i q 1).val = (q ⟨0, by decide⟩).val :=
  dot_S32x2048_S1024x2048_S32x1024_1_1_0_0_n_n.lhsIdx_val_of_single rfl i q
theorem rhs_0 (i : S32x1024.Idx) (q : dot_S32x2048_S1024x2048_S32x1024_1_1_0_0_n_n.contr.Idx) :
    (dot_S32x2048_S1024x2048_S32x1024_1_1_0_0_n_n.rhsIdx i q 0).val = (i 1).val := by
  unfold DotDims.rhsIdx
  rw [dif_neg (show ¬(0 : Fin S1024x2048.rank) ∈ dot_S32x2048_S1024x2048_S32x1024_1_1_0_0_n_n.rhsBatch by decide), dif_pos (show (0 : Fin S1024x2048.rank) ∈ dot_S32x2048_S1024x2048_S32x1024_1_1_0_0_n_n.rhsNonContracting by decide)]
  rfl
theorem rhs_1 (i : S32x1024.Idx) (q : dot_S32x2048_S1024x2048_S32x1024_1_1_0_0_n_n.contr.Idx) :
    (dot_S32x2048_S1024x2048_S32x1024_1_1_0_0_n_n.rhsIdx i q 1).val = (q ⟨0, by decide⟩).val :=
  dot_S32x2048_S1024x2048_S32x1024_1_1_0_0_n_n.rhsIdx_val_of_single rfl i q

/-- The accumulate step at an entry. -/
theorem pay2_apply (x2 : Vec Ideal S1x2048 .f32) (x1 : Vec Ideal S32x2048 .f32) (x0 : Vec Ideal S1024x2048 .f32)
    (acc : Vec Ideal S32x1024 .f32) (b : Fin 32) (r : Fin 1024) :
    k0_pay2 x2 x1 x0 acc (ix2 b r)
      = acc (ix2 b r) + ∑ j : Fin 2048, (x2 (ix2 (0 : Fin 1) j) * x1 (ix2 b j)) * x0 (ix2 r j) := by
  unfold k0_pay2
  simp only [shapeCast_self, matmul]
  rw [addf_apply, Ideal.matmul_constant_zero_apply,
    ← Equiv.sum_comp (contrEquiv1 dot_S32x2048_S1024x2048_S32x1024_1_1_0_0_n_n 2048 rfl rfl).symm]
  refine congrArg (acc (ix2 b r) + ·) (Finset.sum_congr rfl fun k _ => ?_)
  have hk := contrEquiv1_symm_val dot_S32x2048_S1024x2048_S32x1024_1_1_0_0_n_n 2048 rfl rfl k
  have el : dot_S32x2048_S1024x2048_S32x1024_1_1_0_0_n_n.lhsIdx (ix2 b r) ((contrEquiv1 dot_S32x2048_S1024x2048_S32x1024_1_1_0_0_n_n 2048 rfl rfl).symm k) = ix2 b k := funext fun a => Fin.ext (by
    match a with
    | ⟨0, _⟩ => exact lhs_0 _ _
    | ⟨1, _⟩ => exact (lhs_1 _ _).trans hk)
  have er : dot_S32x2048_S1024x2048_S32x1024_1_1_0_0_n_n.rhsIdx (ix2 b r) ((contrEquiv1 dot_S32x2048_S1024x2048_S32x1024_1_1_0_0_n_n 2048 rfl rfl).symm k) = ix2 r k := funext fun a => Fin.ext (by
    match a with
    | ⟨0, _⟩ => exact rhs_0 _ _
    | ⟨1, _⟩ => exact (rhs_1 _ _).trans hk)
  rw [el, er]
  simp only [truncf_apply, mulf_apply, broadcastTo_1b_ab_apply]

end Cert.KernelIdeal.Pay

end
-- ==== Proof.Algebra.lean ====
/-
  The arithmetic both programs share, stated without either program.

  Both compute, for a batch row `b` and a target neuron `t`,
      out[b, t] = ∑ over the 16384 source neurons u of (gain[u] · spikes[b, u]) · adjacency[t, u],
  with gain = 3/2 · E - 1/2 on one side and gain = E - 1/2 · (1 - E) on the other.
  For a REAL mask entry the two gains are one number (the identity fails at an infinite entry, where the
  right-hand side subtracts an infinity from itself: this is where the inputs' finiteness is used).
  The sum over the 16384 sources is the sum of its 8 consecutive stretches of 2048: addition on the extended
  reals is commutative and associative, so no finiteness is needed for the regrouping.
-/
import Idealize.ShloMosaic.PureOps.Ideal
import Idealize.ShloMosaic.Lib.ValueIdx
import Mathlib.Algebra.BigOperators.Fin
import Mathlib.Algebra.BigOperators.Group.Finset.Basic

noncomputable section

open scoped BigOperators

namespace Cert.MatVec

open Idealize.ShloMosaic Idealize.ShloMosaic.ValueIdx

/-! ## The float constants the programs and the precondition spell, as the extended reals their patterns denote -/

/-- `1.5` -/
theorem threeHalves_val : Ideal.ofBits .f32 0x3FC00000#32 = ((3 / 2 : ℝ) : EReal) := by
  simp [Ideal.ofBits, Ideal.ieee, -EReal.coe_mul]; norm_num

/-- `0.5` -/
theorem half_val : Ideal.ofBits .f32 0x3F000000#32 = ((1 / 2 : ℝ) : EReal) := by
  simp [Ideal.ofBits, Ideal.ieee, -EReal.coe_mul]; norm_num

/-- `1.0` -/
theorem one_val : Ideal.ofBits .f32 0x3F800000#32 = ((1 : ℝ) : EReal) := by
  simp [Ideal.ofBits, Ideal.ieee, -EReal.coe_mul]; norm_num

/-- The pattern `0x7F800000` (sign 0, exponent all ones, significand 0): `+∞`. -/
theorem inf_val : Ideal.ofBits .f32 0x7F800000#32 = (⊤ : EReal) := by
  simp [Ideal.ofBits, Ideal.ieee]

/-! ## The gain, written two ways -/

/-- For a real mask entry `e`: `3/2 · e - 1/2 = e - 1/2 · (1 - e)`. -/
theorem gain_eq (e : ℝ) :
    Ideal.ofBits .f32 0x3FC00000#32 * (e : EReal) - Ideal.ofBits .f32 0x3F000000#32
      = (e : EReal) - Ideal.ofBits .f32 0x3F000000#32 * (Ideal.ofBits .f32 0x3F800000#32 - (e : EReal)) := by
  rw [threeHalves_val, half_val, one_val]
  rw [← EReal.coe_mul, ← EReal.coe_sub, ← EReal.coe_sub, ← EReal.coe_mul, ← EReal.coe_sub]
  congr 1
  ring

/-! ## A sum over consecutive stretches -/

/-- The sum of `φ` over the first `n · K` naturals is the sum over `K` consecutive stretches of length `n`. -/
theorem sum_range_blocks {M : Type*} [AddCommMonoid M] (n : ℕ) (φ : ℕ → M) :
    ∀ K : ℕ, ∑ s ∈ Finset.range K, ∑ j ∈ Finset.range n, φ (n * s + j) = ∑ u ∈ Finset.range (n * K), φ u
  | 0 => by simp
  | K + 1 => by
    rw [Finset.sum_range_succ, sum_range_blocks n φ K, Nat.mul_succ, Finset.sum_range_add]

/-! ## The matrix-vector product with a gain on the sources -/

/-- A natural number as a source position (reduced below 16384; the identity on the positions themselves). -/
abbrev pos (u : ℕ) : Fin 16384 := ⟨u % 16384, Nat.mod_lt _ (by norm_num)⟩

theorem pos_val (u : Fin 16384) : pos u.val = u := Fin.ext (Nat.mod_eq_of_lt u.isLt)

/-- Grid point `n` = (row block `n / 8`, source stretch `n % 8`). Row `r` of its 1024 target rows, as a target neuron. -/
abbrev rowOf (n : ℕ) (r : Fin 1024) : Fin 16384 :=
  ⟨1024 * (n / 8 % 16) + r.val, by have := r.isLt; omega⟩

/-- Column `j` of its 2048 sources, as a source neuron. -/
abbrev colOf (n : ℕ) (j : Fin 2048) : Fin 16384 :=
  ⟨2048 * (n % 8) + j.val, by have := j.isLt; omega⟩

/-- Inside stretch `n % 8`, the natural `2048 · (n % 8) + j` is the source `colOf n j`. -/
theorem pos_col (n : ℕ) (j : Fin 2048) : pos (2048 * (n % 8) + j.val) = colOf n j :=
  Fin.ext (Nat.mod_eq_of_lt (by have := j.isLt; omega))

/-- One term of the contraction: source `u`'s gain times its spike in batch row `b`, times the weight from `u` to `t`. -/
def term (g : (⟨2, ![1, 16384]⟩ : Shape).Idx → EReal) (x : (⟨2, ![32, 16384]⟩ : Shape).Idx → EReal)
    (a : (⟨2, ![16384, 16384]⟩ : Shape).Idx → EReal) (b : Fin 32) (t : Fin 16384) (u : ℕ) : EReal :=
  (g (ix2 (0 : Fin 1) (pos u)) * x (ix2 b (pos u))) * a (ix2 t (pos u))

/-- `out[b, t]`: the contraction over all 16384 sources. -/
def mvAt (g : (⟨2, ![1, 16384]⟩ : Shape).Idx → EReal) (x : (⟨2, ![32, 16384]⟩ : Shape).Idx → EReal)
    (a : (⟨2, ![16384, 16384]⟩ : Shape).Idx → EReal) (b : Fin 32) (t : Fin 16384) : EReal :=
  ∑ u : Fin 16384, (g (ix2 (0 : Fin 1) u) * x (ix2 b u)) * a (ix2 t u)

/-- The whole `[32, 16384]` result. -/
def mv (g : (⟨2, ![1, 16384]⟩ : Shape).Idx → EReal) (x : (⟨2, ![32, 16384]⟩ : Shape).Idx → EReal)
    (a : (⟨2, ![16384, 16384]⟩ : Shape).Idx → EReal) : (⟨2, ![32, 16384]⟩ : Shape).Idx → EReal :=
  fun j => mvAt g x a ⟨(j 0).val, idx2_lt0 j⟩ ⟨(j 1).val, idx2_lt1 j⟩

theorem mv_apply (g : (⟨2, ![1, 16384]⟩ : Shape).Idx → EReal) (x : (⟨2, ![32, 16384]⟩ : Shape).Idx → EReal)
    (a : (⟨2, ![16384, 16384]⟩ : Shape).Idx → EReal) (b : Fin 32) (t : Fin 16384) :
    mv g x a (ix2 b t) = mvAt g x a b t := rfl

/-- The contraction is the sum of its 8 stretches of 2048 sources. -/
theorem blocks_eq_mvAt (g : (⟨2, ![1, 16384]⟩ : Shape).Idx → EReal) (x : (⟨2, ![32, 16384]⟩ : Shape).Idx → EReal)
    (a : (⟨2, ![16384, 16384]⟩ : Shape).Idx → EReal) (b : Fin 32) (t : Fin 16384) :
    ∑ s ∈ Finset.range 8, ∑ j ∈ Finset.range 2048, term g x a b t (2048 * s + j) = mvAt g x a b t := by
  rw [sum_range_blocks 2048 (term g x a b t) 8]
  show ∑ u ∈ Finset.range 16384, term g x a b t u = _
  rw [Finset.sum_range]
  unfold mvAt
  refine Finset.sum_congr rfl fun u _ => ?_
  unfold term
  rw [pos_val]

end Cert.MatVec

end
-- ==== Proof.Blocks.lean ====
/-
  The kernel's input blocks and arrays by name, and where a block's entry sits in its array.

  Grid point t = (row block t / 8, source stretch t % 8). The adjacency block there is rows
  1024·(t/8) … +1023 by columns 2048·(t%8) … +2047; the spike block is all 32 batch rows by the same columns;
  the gain block is the one row by the same columns. Before the region the host has written the gain
  (3/2 · E - 1/2, flattened to one row) and the flattened spikes.
-/
import proofs.«147941_j22608707846341_1_alg».proof.Proof.Gen.KernelIdeal.Frame
import proofs.«147941_j22608707846341_1_alg».proof.Proof.Algebra
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.MatVec
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The adjacency block, the spike block and the gain block at a grid point. -/
abbrev ablk (c : Dev nD) (t : Fin cfg0.N) : Vec F S1024x2048 .f32 := iblk m c 0 t
abbrev xblk (c : Dev nD) (t : Fin cfg0.N) : Vec F S32x2048 .f32 := iblk m c 1 t
abbrev gblk (c : Dev nD) (t : Fin cfg0.N) : Vec F S1x2048 .f32 := iblk m c 2 t
/-- The adjacency, the flattened spikes and the flattened gain as the region finds them. -/
abbrev aarr (c : Dev nD) : Vec F S16384x16384 .f32 := V m c main_arg2
abbrev xarr (c : Dev nD) : Vec F S32x16384 .f32 := V m c main_v5
abbrev garr (c : Dev nD) : Vec F S1x16384 .f32 := V m c main_v4

/-! ## Where a grid point's blocks sit

  The grid is 16 row blocks by 8 source stretches, 128 points in all, point `t` at (t / 8, t % 8). The adjacency
  window takes both coordinates as its block index; the spike and the gain windows keep their one row block and
  take the source stretch only. These are finitely many equalities of numbers, checked point by point. -/

/-- The grid has 128 points. -/
theorem t_lt (t : Fin cfg0.N) : t.val < 128 := lt_of_lt_of_eq t.isLt N_0

/-- The adjacency block at point `t` is block (t / 8, t % 8). -/
theorem idx_adj : ∀ t : Fin cfg0.N, win0_0.index t (0 : Fin 2) = t.val / 8 ∧ win0_0.index t (1 : Fin 2) = t.val % 8 :=
  (by decide +kernel : ∀ t : Fin grid0.N, _)

/-- The spike block at point `t` is block (0, t % 8). -/
theorem idx_spk : ∀ t : Fin cfg0.N, win0_1.index t (0 : Fin 2) = 0 ∧ win0_1.index t (1 : Fin 2) = t.val % 8 :=
  (by decide +kernel : ∀ t : Fin grid0.N, _)

/-- The gain block at point `t` is block (0, t % 8). -/
theorem idx_gain : ∀ t : Fin cfg0.N, win0_2.index t (0 : Fin 2) = 0 ∧ win0_2.index t (1 : Fin 2) = t.val % 8 :=
  (by decide +kernel : ∀ t : Fin grid0.N, _)

/-- Entry (r, j) of the adjacency block at point `t` is the adjacency's entry at row 1024 · (t / 8) + r and
    column 2048 · (t % 8) + j: along each axis a block's entry sits at block index × block size + local coordinate. -/
theorem ablk_apply (c : Dev nD) (t : Fin cfg0.N) (r : Fin 1024) (j : Fin 2048) :
    ablk m c t (ix2 r j) = aarr m c (ix2 (rowOf t.val r) (colOf t.val j)) := by
  have hi := idx_adj t
  have ht := t_lt t
  show iblk m c 0 t (ix2 r j) = V m c main_arg2 (ix2 (rowOf t.val r) (colOf t.val j))
  unfold iblk
  rw [View.read_apply]
  show V m c main_arg2 (((cfg0.win 0).blk t).view.emb (ix2 r j)) = V m c main_arg2 (ix2 (rowOf t.val r) (colOf t.val j))
  congr 1
  funext a
  apply Fin.ext
  match a with
  | ⟨0, _⟩ =>
    show win0_0.index t 0 * 1024 + 1 * r.val = 1024 * (t.val / 8 % 16) + r.val
    rw [hi.1]; omega
  | ⟨1, _⟩ =>
    show win0_0.index t 1 * 2048 + 1 * j.val = 2048 * (t.val % 8) + j.val
    rw [hi.2]; omega

/-- Entry (b, j) of the spike block at point `t` is the flattened spikes' entry at batch row b and column
    2048 · (t % 8) + j: the block holds all 32 batch rows, so the row coordinate does not move. -/
theorem xblk_apply (c : Dev nD) (t : Fin cfg0.N) (b : Fin 32) (j : Fin 2048) :
    xblk m c t (ix2 b j) = xarr m c (ix2 b (colOf t.val j)) := by
  have hi := idx_spk t
  have ht := t_lt t
  show iblk m c 1 t (ix2 b j) = V m c main_v5 (ix2 b (colOf t.val j))
  unfold iblk
  rw [View.read_apply]
  show V m c main_v5 (((cfg0.win 1).blk t).view.emb (ix2 b j)) = V m c main_v5 (ix2 b (colOf t.val j))
  congr 1
  funext a
  apply Fin.ext
  match a with
  | ⟨0, _⟩ =>
    show win0_1.index t 0 * 32 + 1 * b.val = b.val
    rw [hi.1]; omega
  | ⟨1, _⟩ =>
    show win0_1.index t 1 * 2048 + 1 * j.val = 2048 * (t.val % 8) + j.val
    rw [hi.2]; omega

/-- Entry (0, j) of the gain block at point `t` is the flattened gain's entry at column 2048 · (t % 8) + j of its
    one row. -/
theorem gblk_apply (c : Dev nD) (t : Fin cfg0.N) (j : Fin 2048) :
    gblk m c t (ix2 (0 : Fin 1) j) = garr m c (ix2 (0 : Fin 1) (colOf t.val j)) := by
  have hi := idx_gain t
  have ht := t_lt t
  show iblk m c 2 t (ix2 (0 : Fin 1) j) = V m c main_v4 (ix2 (0 : Fin 1) (colOf t.val j))
  unfold iblk
  rw [View.read_apply]
  show V m c main_v4 (((cfg0.win 2).blk t).view.emb (ix2 (0 : Fin 1) j)) = V m c main_v4 (ix2 (0 : Fin 1) (colOf t.val j))
  congr 1
  funext a
  apply Fin.ext
  match a with
  | ⟨0, _⟩ =>
    show win0_2.index t 0 * 1 + 1 * (0 : Fin 1).val = (0 : Fin 1).val
    rw [hi.1]; omega
  | ⟨1, _⟩ =>
    show win0_2.index t 1 * 2048 + 1 * j.val = 2048 * (t.val % 8) + j.val
    rw [hi.2]; omega

/-- The adjacency is an argument no host line writes. -/
theorem aarr_eq (c : Dev nD) : aarr m c = m ((c : Thread nD τ).loc main_arg2) := V_main_arg2 m c

/-- The flattened spikes. -/
theorem xarr_eq (c : Dev nD) :
    xarr m c = shapeCast S32x16384 (m ((c : Thread nD τ).loc main_arg0)) shapeCasts_S32x128x128_S32x16384 := by
  show StableHlo.after hostOps0 (fun b => m (c, b)) (Proc.devRef .tc main_v5) = _
  after_results
  rfl

/-- The flattened gain `3/2 · E - 1/2`. -/
theorem garr_eq (c : Dev nD) :
    garr m c = shapeCast S1x16384
      (subf (mulf (broadcastInDim S128x128 ![] bcast_S_S128x128 (constant (F := F) S_ .f32 0x3FC00000#32))
              (m ((c : Thread nD τ).loc main_arg1)))
            (broadcastInDim S128x128 ![] bcast_S_S128x128 (constant (F := F) S_ .f32 0x3F000000#32)))
      shapeCasts_S128x128_S1x16384 := by
  show StableHlo.after hostOps0 (fun b => m (c, b)) (Proc.devRef .tc main_v4) = _
  after_results
  rfl

end Cert.KernelIdeal.Blocks

end
-- ==== Proof.Fold.lean ====
/-
  The accumulator, point by point.

  Along one row block's eight consecutive grid points the accumulator is zeroed at the first and receives one
  stretch's block product at each; nothing else touches it. So after the last of the eight it holds
      0 + (stretch 0's product + … + stretch 7's product),
  entry by entry, and the output block written back there is a copy of it. Each stretch's product at (b, r) is the
  sum over the stretch's 2048 sources of (gain · spike) · weight, read from the whole arrays; the eight stretches
  together are all 16384 sources.
-/
import proofs.«147941_j22608707846341_1_alg».proof.Proof.Pieces
import proofs.«147941_j22608707846341_1_alg».proof.Proof.Payload
import proofs.«147941_j22608707846341_1_alg».proof.Proof.Blocks
import Idealize.ShloMosaic.Lib.Pipeline.Value

set_option maxRecDepth 16384

noncomputable section

open scoped BigOperators

namespace Cert.KernelIdeal.Fold

open Cert.KernelIdeal Cert.KernelIdeal.Gen Cert.KernelIdeal.Blocks Cert.MatVec
open Idealize.ShloMosaic Idealize.ShloMosaic.TcCoe Idealize.ShloMosaic.ValueIdx Idealize.SL.Sem

variable (m : (ℓ : Loc nD τ sig) → Buf (Elt Ideal) ℓ)

/-! ## What each point leaves in the accumulator, over what the point before left -/

/-- The accumulate step at point `t`, on an accumulator `acc`. -/
abbrev stepAt (c : Dev nD) (n : ℕ) (h : n < cfg0.N) (acc : Vec Ideal S32x1024 .f32) : Vec Ideal S32x1024 .f32 :=
  k0_pay2 (gblk m c ⟨n, h⟩) (xblk m c ⟨n, h⟩) (ablk m c ⟨n, h⟩) acc

/-- The first point of a row block: the step on the zero block. -/
abbrev resetAt (c : Dev nD) (n : ℕ) (h : n < cfg0.N) : Vec Ideal S32x1024 .f32 :=
  stepAt m c n h (k0_pay1 (F := Ideal))

theorem acc_first (c : Dev nD) (t : Fin cfg0.N) (h0 : t.val % 8 = 0) :
    (outsAt0 m c t.val t.isLt).2 = resetAt m c t.val t.isLt := by
  have h1 : ¬t.val % 8 = 7 := by omega
  rw [outsAt0_A m c t h0 h1]
  dsimp only
  exact Pieces.scratch_A (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) ((hcond0_0 t).mpr h0) (fun h => h1 ((hcond0_1 t).mp h))

theorem acc_later (c : Dev nD) (t : Fin cfg0.N) (h0 : ¬t.val % 8 = 0) :
    (outsAt0 m c t.val t.isLt).2
      = stepAt m c t.val t.isLt (outsAt0 m c (t.val - 1) (Nat.lt_of_le_of_lt (Nat.sub_le _ _) t.isLt)).2 := by
  by_cases h1 : t.val % 8 = 7
  · rw [outsAt0_C m c t h0 h1]
    dsimp only
    exact Pieces.scratch_C (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (fun h => h0 ((hcond0_0 t).mp h)) ((hcond0_1 t).mpr h1) _
  · rw [outsAt0_B m c t h0 h1]
    dsimp only
    exact Pieces.scratch_B (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (fun h => h0 ((hcond0_0 t).mp h)) (fun h => h1 ((hcond0_1 t).mp h)) _

/-- At a row block's last point the output block is a copy of the accumulator. -/
theorem out_last (c : Dev nD) (t : Fin cfg0.N) (h0 : ¬t.val % 8 = 0) (h1 : t.val % 8 = 7) :
    (outsAt0 m c t.val t.isLt).1 = (outsAt0 m c t.val t.isLt).2 := by
  rw [outsAt0_C m c t h0 h1]
  dsimp only
  exact (Pieces.out_C (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (fun h => h0 ((hcond0_0 t).mp h)) ((hcond0_1 t).mpr h1) _).trans
    (Pieces.scratch_C (F := Ideal) c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) (fun h => h0 ((hcond0_0 t).mp h)) ((hcond0_1 t).mpr h1) _).symm

/-! ## One step at an entry, over the whole arrays -/

/-- Point `n`'s addend at entry `i = (b, r)`: the sum, over the 2048 sources of stretch `n % 8`, of
    (gain · spike in batch row b) · weight into target row `r` of row block `n / 8`. -/
def addend (c : Dev nD) (n : ℕ) (i : S32x1024.Idx) : EReal :=
  ∑ j ∈ Finset.range 2048, term (garr m c) (xarr m c) (aarr m c) ⟨(i 0).val, idx2_lt0 i⟩
    (rowOf n ⟨(i 1).val, idx2_lt1 i⟩) (2048 * (n % 8) + j)

theorem step_apply (c : Dev nD) (t : Fin cfg0.N) (acc : Vec Ideal S32x1024 .f32) (b : Fin 32) (r : Fin 1024) :
    stepAt m c t.val t.isLt acc (ix2 b r) = acc (ix2 b r) + addend m c t.val (ix2 b r) := by
  show k0_pay2 (gblk m c t) (xblk m c t) (ablk m c t) acc (ix2 b r) = _
  rw [Pay.pay2_apply]
  unfold addend
  rw [Finset.sum_range]
  refine congrArg (acc (ix2 b r) + ·) (Finset.sum_congr rfl fun j _ => ?_)
  show _ = term (garr m c) (xarr m c) (aarr m c) b (rowOf t.val r) (2048 * (t.val % 8) + j.val)
  unfold term
  rw [pos_col, gblk_apply, xblk_apply, ablk_apply]

theorem step_idx (c : Dev nD) (t : Fin cfg0.N) (acc : Vec Ideal S32x1024 .f32) (i : S32x1024.Idx) :
    stepAt m c t.val t.isLt acc i = acc i + addend m c t.val i := by
  obtain ⟨b, r, rfl⟩ : ∃ (b : Fin 32) (r : Fin 1024), i = ix2 b r := ⟨i 0, i 1, eq_ix2 i⟩
  exact step_apply m c t acc b r

/-! ## The accumulator at a row block's last point -/

/-- After the last of a row block's eight points the accumulator holds, at (b, r), the contraction over all
    16384 sources into that block's target row r. -/
theorem acc_last (c : Dev nD) (t : Fin cfg0.N) (h7 : t.val % 8 = 7) (b : Fin 32) (r : Fin 1024) :
    (outsAt0 m c t.val t.isLt).2 (ix2 b r) = mvAt (garr m c) (xarr m c) (aarr m c) b (rowOf t.val r) := by
  have hN : cfg0.N = 128 := N_0
  have ht : t.val < 128 := lt_of_lt_of_eq t.isLt hN
  have h' : 8 * (t.val / 8) + t.val % 8 < cfg0.N := by rw [Nat.div_add_mod]; exact t.isLt
  -- the accumulator is the fold of the steps from the block's first point
  have hfold := Pipeline.eq_accAt_of_mod (fun n h => (outsAt0 m c n h).2) 8 (resetAt m c) (stepAt m c)
    (fun n h e => acc_first m c ⟨n, h⟩ e) (fun n h e => acc_later m c ⟨n + 1, h⟩ e) (by norm_num) t.val t.isLt h'
  refine (congrFun hfold (ix2 b r)).trans ?_
  -- a fold of additions is the sum of the addends
  rw [Pipeline.accAt_add_apply (resetAt m c) (stepAt m c) (fun _ => (0 : EReal)) (addend m c) (8 * (t.val / 8)) 7
    (fun h i => (step_idx m c ⟨8 * (t.val / 8), h⟩ (k0_pay1 (F := Ideal)) i).trans (by rw [Pay.pay1_apply]))
    (fun n h acc i _ _ => step_idx m c ⟨n, h⟩ acc i)
    (t.val % 8) (by omega) h' (ix2 b r)]
  rw [show t.val % 8 + 1 = 8 by omega, zero_add, ← blocks_eq_mvAt]
  refine Finset.sum_congr rfl fun s hs => ?_
  have hs8 : s < 8 := Finset.mem_range.mp hs
  unfold addend
  refine Finset.sum_congr rfl fun j _ => ?_
  have e1 : (8 * (t.val / 8) + s) % 8 = s := by omega
  have e2 : rowOf (8 * (t.val / 8) + s) r = rowOf t.val r := Fin.ext (by show 1024 * ((8 * (t.val / 8) + s) / 8 % 16) + r.val = 1024 * (t.val / 8 % 16) + r.val; omega)
  show term (garr m c) (xarr m c) (aarr m c) b (rowOf (8 * (t.val / 8) + s) r) (2048 * ((8 * (t.val / 8) + s) % 8) + j) = _
  rw [e1, e2]

end Cert.KernelIdeal.Fold

end
-- ==== Proof.KernelValue.lean ====
/-
  The kernel's result array.

  The output [32, 16384] is written back in 16 column blocks of 1024 target neurons, block q at the last of
  row block q's eight grid points, and what is written there is the accumulator: the full contraction for the
  block's 1024 targets. The blocks tile the array, so the array ends as the matrix-vector product, and the one
  host line after the region reshapes it to [32, 128, 128].
-/
import proofs.«147941_j22608707846341_1_alg».proof.Proof.Fold
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Blocks Cert.KernelIdeal.Fold Cert.MatVec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The output window's index map over the grid: column block `t / 8` of the one row of blocks. -/
theorem out_index : ∀ t : Fin cfg0.N, win0_3.index t (0 : Fin 2) = 0 ∧ win0_3.index t (1 : Fin 2) = t.val / 8 :=
  (by decide +kernel : ∀ t : Fin grid0.N, win0_3.index t (0 : Fin 2) = 0 ∧ win0_3.index t (1 : Fin 2) = t.val / 8)

/-- What the output array holds after the run: the matrix-vector product of the arrays the region finds. -/
abbrev outArr (c : Dev nD) : Buf (Elt Ideal) ((c : Thread nD τ).loc main_v6) :=
  mv (garr m c) (xarr m c) (aarr m c)

-- the entry read through the block's view and the array's entry are one value, written at two spellings of the
-- element type (the window's and the buffer table's); identifying the two spellings is a long unfolding
set_option maxRecDepth 65536 in
/-- What a row block's last point writes back is its block of the product. -/
theorem flushed_eq (c : Dev nD) (t : Fin cfg0.N) (hf : (cfg0.win 3).flush t = true) :
    (dats m 0 c).flushed 3 t = ((cfg0.win 3).blk t).view.read (Elt Ideal) (outArr m c) := by
  have h7 : t.val % 8 = 7 := (flush0_3 t).mp hf
  have h0 : ¬t.val % 8 = 0 := by omega
  have hN : t.val < 128 := lt_of_lt_of_eq t.isLt (show cfg0.N = 128 from N_0)
  show (cfg0.win 3).cut (grid0.coords t) ((dats m 0 c).after 3 t) = _
  rw [after0_3, out_last m c t h0 h7]
  funext y
  rw [View.read_apply]
  obtain ⟨b, r, rfl⟩ : ∃ (b : Fin 32) (r : Fin 1024), y = ix2 b r := ⟨y 0, y 1, eq_ix2 y⟩
  have he : ((cfg0.win 3).blk t).view.emb (ix2 b r) = ix2 b (rowOf t.val r) := by
    funext a; apply Fin.ext
    match a with
    | ⟨0, _⟩ => show win0_3.index t (0 : Fin 2) * 32 + 1 * b.val = b.val; rw [(out_index t).1]; omega
    | ⟨1, _⟩ => show win0_3.index t (1 : Fin 2) * 1024 + 1 * r.val = 1024 * (t.val / 8 % 16) + r.val; rw [(out_index t).2]; omega
  show (outsAt0 m c t.val t.isLt).2 (ix2 b r) = outArr m c (((cfg0.win 3).blk t).view.emb (ix2 b r))
  rw [he]
  exact acc_last m c t h7 b r

/-- An index of the output is in point `t`'s block iff each coordinate is in the block's range on its axis. -/
theorem mem_out_blk (t : Fin cfg0.N) (i : S32x16384.Idx) :
    i ∈ ((cfg0.win 3).blk t).view.set ↔ ∀ a : Fin 2, win0_3.index t a * S32x1024.size a ≤ (i a).val ∧ (i a).val < win0_3.index t a * S32x1024.size a + S32x1024.size a := by
  show i ∈ ((View.whole main_v6).slice (win0_3.rect t)).set ↔ _
  rw [View.set_slice_whole, Rect.mem_set_unit]
  exact Iff.rfl

/-- Every target column lies in the block its row block's last point writes back. -/
theorem cover (i : S32x16384.Idx) : ∃ t : Fin cfg0.N, (cfg0.win 3).flush t = true ∧ i ∈ ((cfg0.win 3).blk t).view.set := by
  have h0 : (i 0).val < 32 := (i 0).isLt
  have h1 : (i 1).val < 16384 := (i 1).isLt
  have hN : cfg0.N = 128 := N_0
  have hlt : 8 * ((i 1).val / 1024) + 7 < cfg0.N := by rw [hN]; omega
  refine ⟨⟨8 * ((i 1).val / 1024) + 7, hlt⟩, (flush0_3 _).mpr (by show (8 * ((i 1).val / 1024) + 7) % 8 = 7; omega), ?_⟩
  rw [mem_out_blk]
  obtain ⟨e0, e1⟩ := out_index ⟨8 * ((i 1).val / 1024) + 7, hlt⟩
  have e1' : win0_3.index ⟨8 * ((i 1).val / 1024) + 7, hlt⟩ (1 : Fin 2) = (8 * ((i 1).val / 1024) + 7) / 8 := e1
  intro a
  match a with
  | ⟨0, _⟩ =>
    show win0_3.index ⟨8 * ((i 1).val / 1024) + 7, hlt⟩ (0 : Fin 2) * 32 ≤ (i 0).val ∧ (i 0).val < win0_3.index ⟨8 * ((i 1).val / 1024) + 7, hlt⟩ (0 : Fin 2) * 32 + 32
    rw [e0]; omega
  | ⟨1, _⟩ =>
    show win0_3.index ⟨8 * ((i 1).val / 1024) + 7, hlt⟩ (1 : Fin 2) * 1024 ≤ (i 1).val ∧ (i 1).val < win0_3.index ⟨8 * ((i 1).val / 1024) + 7, hlt⟩ (1 : Fin 2) * 1024 + 1024
    rw [e1']; omega

/-- The output array after the run. -/
theorem final_out (c : Dev nD) : (dats m 0 c).arrAt 3 cfg0.N = outArr m c :=
  (dats m 0 c).arrAt_eq_of_cover 3 (outArr m c) (flushed_eq m c) cover

/-- The host line after the region: the result is the output array reshaped. -/
theorem tail_result (c : Dev nD) :
    Pipeline.afterTail₀ cfgs (dats m) 0 (V0 m) [hostOps1] c main_v7
      = shapeCast S32x128x128 (outArr m c) shapeCasts_S32x16384_S32x128x128 := by
  unfold Pipeline.afterTail₀
  show StableHlo.after hostOps1 _ (Proc.devRef .tc main_v7) = _
  after_results
  exact congrArg (fun v => shapeCast S32x128x128 v shapeCasts_S32x16384_S32x128x128)
    ((Pipeline.withArrays_arr spec0 launch0.win.arr_inj c _ _ 3).trans (final_out m c))

/-- The kernel's run: the result at the reshaped product, the arguments unchanged. -/
theorem run : θ_run defs (onTc (τ := τ) (main (F := Ideal))) ⟨m, fun _ => 0, ρ⟩ fun r => ∀ c : Dev nD,
      r.2.mem ((c.tc : Thread nD τ).loc main_v7) = shapeCast S32x128x128 (outArr m c) shapeCasts_S32x16384_S32x128x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c)))⟩)
    (run_main m ρ)

end Cert.KernelIdeal.KValue

end
-- ==== Proof.RefValue.lean ====
/-
  The reference's result, one host operation at a time, is the same matrix-vector product.

  Its stage before the final reshape is, at (b, t), the sum over the 16384 sources u of
      ((E - 1/2 · (1 - E))[u] · spikes[b, u]) · adjacency[t, u],
  the mask and the spikes read at the source's grid position (u / 128, u % 128). With the gain written
  3/2 · E - 1/2 instead, and both the gain and the spikes flattened first, this is the product `mv`.
  The two gains agree at a real mask entry; that is the only place the inputs' finiteness enters.
-/
import proofs.«147941_j22608707846341_1_alg».proof.Proof.Gen.ReferenceIdeal.Read
import proofs.«147941_j22608707846341_1_alg».proof.Proof.Algebra
import Idealize.ShloMosaic.Lib.Pipeline.Value
import Idealize.ShloMosaic.Lib.ValueIdx

noncomputable section

open scoped BigOperators

namespace Cert.ReferenceIdeal.RefValue

open Cert.ReferenceIdeal Cert.ReferenceIdeal.Read Cert.MatVec
open Idealize.ShloMosaic Idealize.ShloMosaic.ValueIdx

/-- Source `u`'s position on the 128 × 128 grid. -/
abbrev gridPos (u : Fin 16384) : S128x128.Idx := ix2 (⟨u.val / 128, by have := u.isLt; omega⟩ : Fin 128) (⟨u.val % 128, Nat.mod_lt _ (by norm_num)⟩ : Fin 128)

/-- Batch row `b`, source `u`, as an index of the [32, 128, 128] spikes. -/
abbrev spikePos (b : Fin 32) (u : Fin 16384) : S32x128x128.Idx :=
  ix3 b (⟨u.val / 128, by have := u.isLt; omega⟩ : Fin 128) (⟨u.val % 128, Nat.mod_lt _ (by norm_num)⟩ : Fin 128)

/-- The flattened spikes at (b, u). -/
theorem flat_spikes (sp : S32x128x128.Idx → EReal) (h : S32x128x128.ShapeCasts S32x16384) (b : Fin 32) (u : Fin 16384) :
    shapeCast S32x16384 sp h (ix2 b u) = sp (spikePos b u) := by
  refine shapeCast_apply sp h (ix2 b u) (spikePos b u) ?_
  rewrite [Shape.rowMajor_val_three, Shape.rowMajor_val_two]
  have hb : b.val < 32 := b.isLt
  have hu : u.val < 16384 := u.isLt
  show (b.val * 128 + u.val / 128) * 128 + u.val % 128 = b.val * 16384 + u.val
  omega

/-- A [128, 128] array flattened to one row, at (0, u). -/
theorem flat_row (w : S128x128.Idx → EReal) (S1 : Shape) (hS : S1 = ⟨2, ![1, 16384]⟩) (h : S128x128.ShapeCasts ⟨2, ![1, 16384]⟩) (u : Fin 16384) :
    shapeCast (⟨2, ![1, 16384]⟩ : Shape) w h (ix2 (0 : Fin 1) u) = w (gridPos u) := by
  refine shapeCast_apply w h (ix2 (0 : Fin 1) u) (gridPos u) ?_
  rewrite [Shape.rowMajor_val_two, Shape.rowMajor_val_two]
  have hu : u.val < 16384 := u.isLt
  show u.val / 128 * 128 + u.val % 128 = 0 * 16384 + u.val
  omega

/-- The reference's flattened product operand at (b, u): the reference's gain at the source's grid position times the spike. -/
theorem ref_operand (sp : S32x128x128.Idx → EReal) (E : S128x128.Idx → EReal) (b : Fin 32) (u : Fin 16384) :
    val_main_v8 (F := Ideal) sp E (ix2 b u)
      = (E (gridPos u) - Ideal.ofBits .f32 0x3F000000#32 * (Ideal.ofBits .f32 0x3F800000#32 - E (gridPos u))) * sp (spikePos b u) := by
  have e8 : idx_main_v8 (ix2 b u) = spikePos b u := by
    have hb : b.val < 32 := b.isLt
    have hu : u.val < 16384 := u.isLt
    funext a; apply Fin.ext
    match a with
    | ⟨0, _⟩ => show (b.val * 16384 + u.val) / 16384 = b.val; omega
    | ⟨1, _⟩ => show (b.val * 16384 + u.val) / 128 % 128 = u.val / 128; omega
    | ⟨2, _⟩ => show (b.val * 16384 + u.val) % 128 = u.val % 128; omega
  have e5 : idx_main_v5 (idx_main_v6 (spikePos b u)) = gridPos u := by
    funext a; apply Fin.ext
    match a with
    | ⟨0, _⟩ => rfl
    | ⟨1, _⟩ => rfl
  rw [val_main_v8_apply, e8, val_main_v7_apply, val_main_v6_apply, val_main_v5_apply, e5, val_main_v4_apply,
    val_main_v3_apply, val_main_v2_apply, val_main_v1_apply, val_main_v0_apply]
  rfl

/-- The reference's stage before its final reshape is the product `mv` of the flattened kernel-side gain
    `3/2 · E - 1/2`, the flattened spikes and the adjacency — for a mask `E` of reals. -/
theorem ref_eq_mv (sp : S32x128x128.Idx → EReal) (E : S128x128.Idx → EReal) (a : S16384x16384.Idx → EReal)
    (hE : ∀ y, ∃ r : ℝ, E y = (r : EReal))
    (hb : S_.BroadcastsInDim S128x128 (![] : Fin 0 → Fin S128x128.rank))
    (h1 : S128x128.ShapeCasts ⟨2, ![1, 16384]⟩) (h2 : S32x128x128.ShapeCasts S32x16384) :
    val_main_v9 (F := Ideal) sp E a
      = mv (shapeCast (⟨2, ![1, 16384]⟩ : Shape)
              (subf (mulf (broadcastInDim S128x128 ![] hb (constant (F := Ideal) S_ .f32 0x3FC00000#32)) E)
                    (broadcastInDim S128x128 ![] hb (constant (F := Ideal) S_ .f32 0x3F000000#32))) h1)
           (shapeCast S32x16384 sp h2) a := by
  funext i
  obtain ⟨b, t, rfl⟩ : ∃ (b : Fin 32) (t : Fin 16384), i = ix2 b t := ⟨i 0, i 1, eq_ix2 i⟩
  rw [val_main_v9_apply, mv_apply]
  unfold mvAt
  refine Finset.sum_congr rfl fun u _ => ?_
  have el : lidx_main_v9 (ix2 b t) u = ix2 b u := by
    funext a; match a with
    | ⟨0, _⟩ => rfl
    | ⟨1, _⟩ => rfl
  have er : ridx_main_v9 (ix2 b t) u = ix2 t u := by
    funext a; match a with
    | ⟨0, _⟩ => rfl
    | ⟨1, _⟩ => rfl
  rw [el, er, ref_operand, flat_spikes, flat_row _ _ rfl]
  obtain ⟨e, he⟩ := hE (gridPos u)
  show (E (gridPos u) - _ * (_ - E (gridPos u))) * _ * _ = (Ideal.ofBits .f32 0x3FC00000#32 * E (gridPos u) - Ideal.ofBits .f32 0x3F000000#32) * _ * _
  rw [he, gain_eq e]

end Cert.ReferenceIdeal.RefValue

end
-- ==== Proof.Finite.lean ====
/-
  From the precondition to "every entry of the mask E is a real number".
  The precondition is the conjunction of three tests `all (|x| < +inf)`, one per input; the middle one is E's.
-/
import proofs.«147941_j22608707846341_1_alg».proof.Defs
import proofs.«147941_j22608707846341_1_alg».proof.Proof.Gen.Pre_finite_inputs
import proofs.«147941_j22608707846341_1_alg».proof.Proof.Algebra
import Idealize.ShloMosaic.Lib.ReduceAll
import Idealize.ShloMosaic.Lib.ValueIdx

noncomputable section

namespace Cert.Finite

open Idealize.ShloMosaic Idealize.SL.Sem

/-- The scalar shape has exactly one index. -/
instance subsingleton_scalar_idx : Subsingleton Cert.Pre_finite_inputs.S_.Idx :=
  ⟨fun a b => funext fun d => d.elim0⟩

/-- An extended real whose absolute value `max x (-x)` lies strictly below `+∞` is a real number:
    at `⊥` the negation is `⊤`, at `⊤` the value itself is, and either makes the maximum `⊤`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A one-bit word made from a Boolean is `1` only when the Boolean is true. -/
theorem eq_true_of_ofBool_eq_one {b : Bool} (h : BitVec.ofBool b = 1#1) : b = true := by
  cases b
  · exact absurd h (by decide)
  · rfl

/-- Under the precondition every entry of the mask `E` (argument 1) is a real. -/
theorem mask_real (m : (ℓ : Loc Cert.KernelIdeal.nD Cert.KernelIdeal.τ Cert.KernelIdeal.sig) → Buf (Elt Ideal) ℓ)
    (hpre : Cert.Pre_KernelIdeal m) (c : Dev Cert.KernelIdeal.nD) (y : Cert.KernelIdeal.S128x128.Idx) :
    ∃ r : ℝ, (m ((c.tc : Thread Cert.KernelIdeal.nD Cert.KernelIdeal.τ).loc Cert.KernelIdeal.main_arg1)
        : Cert.KernelIdeal.S128x128.Idx → EReal) y = (r : EReal) := by
  -- the precondition on device `c`, read at the scalar result's one index
  have h := congrFun (hpre c) ValueIdx.ix0
  dsimp only [Cert.Pre_finite_inputs.fn] at h
  -- the test is `(all₀ ∧ all₁) ∧ all₂`, one `all (|x| < +∞)` per argument: keep the middle one, `E`'s
  obtain ⟨h01, -⟩ := IntOp.andi_eq_one.1 h
  obtain ⟨-, hE⟩ := IntOp.andi_eq_one.1 h01
  -- a reduction by `and` over every axis that came out `1` met a `1` at every index, so at `y`
  have hy := Host.reduce_andi_all _ _ _ _ _ hE y
  -- at the extended reals that entry is the one-bit word of `max (E y) (-(E y)) < +∞`, the bound being
  -- the pattern `0x7F800000` broadcast from the scalar shape
  refine real_of_abs_lt_top _ ?_
  rw [← Cert.MatVec.inf_val]
  exact of_decide_eq_true (eq_true_of_ofBool_eq_one hy)

end Cert.Finite

end
-- ==== Proof.Bridge.lean ====
/-
  The two results are one array.

  The kernel ends at the reshape of `mv gain spikes adjacency`, its gain `3/2 · E - 1/2` and its spikes flattened by
  the host lines before the region; the reference ends at the reshape of its own stage, which for a mask of reals is
  the same `mv`. The mask is real under the precondition.
-/
import proofs.«147941_j22608707846341_1_alg».proof.Proof.KernelValue
import proofs.«147941_j22608707846341_1_alg».proof.Proof.RefValue
import proofs.«147941_j22608707846341_1_alg».proof.Proof.Finite

noncomputable section

namespace Cert.Bridge

open Cert.KernelIdeal Cert.KernelIdeal.Gen Cert.KernelIdeal.Blocks Cert.MatVec
open Idealize.ShloMosaic Idealize.ShloMosaic.TcCoe Idealize.SL.Sem

/-- Under the precondition the reference's result, read at the kernel's arguments, is the kernel's result. -/
theorem result_eq (m : (ℓ : Loc nD τ sig) → Buf (Elt Ideal) ℓ) (hpre : Cert.Pre_KernelIdeal m) (c : Dev nD) :
    Cert.ReferenceIdeal.Read.val_main_v10 (F := Ideal) (m ((c.tc : Thread nD τ).loc main_arg0))
        (m ((c.tc : Thread nD τ).loc main_arg1)) (m ((c.tc : Thread nD τ).loc main_arg2))
      = shapeCast S32x128x128 (Cert.KernelIdeal.KValue.outArr m c) shapeCasts_S32x16384_S32x128x128 := by
  unfold Cert.ReferenceIdeal.Read.val_main_v10
  rw [Cert.ReferenceIdeal.RefValue.ref_eq_mv _ _ _ (Cert.Finite.mask_real m hpre c) bcast_S_S128x128
    shapeCasts_S128x128_S1x16384 shapeCasts_S32x128x128_S32x16384]
  show _ = shapeCast S32x128x128 (mv (garr m c) (xarr m c) (aarr m c)) shapeCasts_S32x16384_S32x128x128
  rw [garr_eq, xarr_eq, aarr_eq]

end Cert.Bridge

end
-- ==== Proof.lean ====
/-
  Both programs compute, for each of 32 batch rows b and 16384 target neurons t,
      out[b, t] = ∑ over the 16384 source neurons u of (gain[u] · spikes[b, u]) · adjacency[t, u],
  reshaped to [32, 128, 128]. The kernel forms gain = 3/2 · E - 1/2 on the host, streams the adjacency in
  1024 × 2048 blocks over a 16 × 8 grid and accumulates the eight block products of a row block in a scratch
  buffer, writing it back at the row block's last point. The reference forms gain = E - 1/2 · (1 - E) and takes one
  contraction. The two gains are one number at a real mask entry (the precondition gives reals), and a sum over
  16384 sources is the sum of its eight stretches of 2048 whatever the summands, so the results agree entry by entry
  on the extended reals. The narrowing of the block product's operands to a 16-bit format is the identity there.
  The idealization rewrote no operation, so there is nothing to preserve.
-/
import proofs.«147941_j22608707846341_1_alg».proof.Defs
import proofs.«147941_j22608707846341_1_alg».proof.Proof.Gen.Kernel
import proofs.«147941_j22608707846341_1_alg».proof.Proof.Gen.Kernel.Frame
import proofs.«147941_j22608707846341_1_alg».proof.Proof.Gen.KernelIdeal
import proofs.«147941_j22608707846341_1_alg».proof.Proof.Gen.KernelIdeal.Frame
import proofs.«147941_j22608707846341_1_alg».proof.Proof.Gen.ReferenceIdeal
import proofs.«147941_j22608707846341_1_alg».proof.Proof.Gen.ReferenceIdeal.Run
import proofs.«147941_j22608707846341_1_alg».proof.Proof.Gen.ReferenceIdeal.Read
import proofs.«147941_j22608707846341_1_alg».proof.Proof.Gen.Pre_finite_inputs
import proofs.«147941_j22608707846341_1_alg».proof.Proof.KernelValue
import proofs.«147941_j22608707846341_1_alg».proof.Proof.Bridge
import Idealize.ShloMosaic.Adequacy
import Idealize.ShloMosaic.Init

noncomputable section

namespace Cert.Proof

open Idealize.ShloMosaic Idealize.ShloMosaic.TcCoe Idealize.SL.Sem

/-- Each program terminates without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both runs end at the reference's result term of those arguments: the reference's by
    its own run, the kernel's because its reshaped product is that term under the precondition. -/
theorem algebraic : Cert.algebraic_KernelIdeal_ReferenceIdeal := by
  intro m ρ m' ρ' hpre hagree
  refine ⟨fun c => Cert.ReferenceIdeal.Read.val_main_v10 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.Bridge.result_eq m hpre c).symm, (h c).2⟩)
      (Cert.KernelIdeal.KValue.run m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.ReferenceIdeal.Read.val_main_v10_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
